-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x640x5x5 : Shape := ⟨4, ![128, 640, 5, 5]⟩
abbrev S64x128x640x5x5 : Shape := ⟨5, ![64, 128, 640, 5, 5]⟩
abbrev S_ : Shape := ⟨0, ![]⟩

class Facts : Prop where
  bcast_S_S128x640x5x5 : S_.BroadcastsInDim S128x640x5x5 (![] : Fin 0 → Fin S128x640x5x5.rank)
  reducesTo_S128x640x5x5_S_d0_1_2_3 : S128x640x5x5.ReducesTo [0, 1, 2, 3] S_
  h_S_ : 0 < S_.numel
  bcast_S_S64x128x640x5x5 : S_.BroadcastsInDim S64x128x640x5x5 (![] : Fin 0 → Fin S64x128x640x5x5.rank)
  reducesTo_S64x128x640x5x5_S_d0_1_2_3_4 : S64x128x640x5x5.ReducesTo [0, 1, 2, 3, 4] S_

variable [Facts]

def fn {F : FTy → Type} [FloatOps F] (main_arg0 : FVec F S128x640x5x5 .f32) (main_arg1 : FVec F S64x128x640x5x5 .f32) : IVec S_ 1 :=
  let main_v0 : FVec F S128x640x5x5 .f32 := Host.absf main_arg0
  let main_cst : FVec F S_ .f32 := constant S_ .f32 0x7F800000#32
  let main_v1 : FVec F S128x640x5x5 .f32 := broadcastInDim S128x640x5x5 ![] bcast_S_S128x640x5x5 main_cst
  let main_v2 : IVec S128x640x5x5 1 := cmpf .olt main_v0 main_v1
  let main_c : IVec S_ 1 := constantI S_ 1 1#1
  let main_v3 : IVec S_ 1 := (fun x v => Host.reduce IntOp.andi x v reducesTo_S128x640x5x5_S_d0_1_2_3 h_S_) main_v2 main_c
  let main_v4 : FVec F S64x128x640x5x5 .f32 := Host.absf main_arg1
  let main_cst_0 : FVec F S_ .f32 := constant S_ .f32 0x7F800000#32
  let main_v5 : FVec F S64x128x640x5x5 .f32 := broadcastInDim S64x128x640x5x5 ![] bcast_S_S64x128x640x5x5 main_cst_0
  let main_v6 : IVec S64x128x640x5x5 1 := cmpf .olt main_v4 main_v5
  let main_c_1 : IVec S_ 1 := constantI S_ 1 1#1
  let main_v7 : IVec S_ 1 := (fun x v => Host.reduce IntOp.andi x v reducesTo_S64x128x640x5x5_S_d0_1_2_3_4 h_S_) main_v6 main_c_1
  let main_v8 : IVec S_ 1 := andi main_v3 main_v7
  main_v8
-- ==== Kernel.lean ====
abbrev S128x640x5x5 : Shape := ⟨4, ![128, 640, 5, 5]⟩
abbrev S64x128x640x5x5 : Shape := ⟨5, ![64, 128, 640, 5, 5]⟩
abbrev S128x16000 : Shape := ⟨2, ![128, 16000]⟩
abbrev S64x128x16000 : Shape := ⟨3, ![64, 128, 16000]⟩
abbrev S64x16000 : Shape := ⟨2, ![64, 16000]⟩
abbrev S8x128x3200 : Shape := ⟨3, ![8, 128, 3200]⟩
abbrev S8x3200 : Shape := ⟨2, ![8, 3200]⟩
abbrev S128x64 : Shape := ⟨2, ![128, 64]⟩
abbrev S128 : Shape := ⟨1, ![128]⟩
abbrev S128x1 : Shape := ⟨2, ![128, 1]⟩
abbrev S64 : Shape := ⟨1, ![64]⟩
abbrev S1x64 : Shape := ⟨2, ![1, 64]⟩

abbrev nBuf : Space → Nat
  | .hbm => 6
  | .vmem => 7
  | .smem => 0
  | _ => 0

abbrev bufTy : (tb : Table) → Fin (tcTables nBuf tb) → BufTy
  | .hbm, ⟨0, _⟩ => ⟨S128x640x5x5, .f32⟩
  | .hbm, ⟨1, _⟩ => ⟨S64x128x640x5x5, .f32⟩
  | .hbm, ⟨2, _⟩ => ⟨S128x16000, .f32⟩
  | .hbm, ⟨3, _⟩ => ⟨S64x128x16000, .f32⟩
  | .hbm, ⟨4, _⟩ => ⟨S64x16000, .f32⟩
  | .hbm, ⟨5, _⟩ => ⟨S128x64, .f32⟩
  | .local _ .vmem, ⟨0, _⟩ => ⟨S8x128x3200, .f32⟩
  | .local _ .vmem, ⟨1, _⟩ => ⟨S8x128x3200, .f32⟩
  | .local _ .vmem, ⟨2, _⟩ => ⟨S8x3200, .f32⟩
  | .local _ .vmem, ⟨3, _⟩ => ⟨S8x3200, .f32⟩
  | .local _ .vmem, ⟨4, _⟩ => ⟨S128x16000, .f32⟩
  | .local _ .vmem, ⟨5, _⟩ => ⟨S64x16000, .f32⟩
  | .local _ .vmem, ⟨6, _⟩ => ⟨S128x64, .f32⟩
  | _, _ => ⟨S128x640x5x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x16000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x16000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S128x640x5x5_S128x16000 : S128x640x5x5.ShapeCasts S128x16000
  shapeCasts_S64x128x640x5x5_S64x128x16000 : S64x128x640x5x5.ShapeCasts S64x128x16000
  inb_S8x128x3200_S8x128x3200_0_0_0 : ∀ a, (![0, 0, 0] : Fin 3 → Nat) a + S8x128x3200.size a ≤ S8x128x3200.size a
  h_S8x128x3200 : 0 < S8x128x3200.numel
  shapeCasts_S8x128x3200_S8x128x3200 : S8x128x3200.ShapeCasts S8x128x3200
  reduces_S8x128x3200_S8x3200 : S8x128x3200.Reduces [1] S8x3200
  inb_S8x3200_S8x3200_0_0 : ∀ a, (![0, 0] : Fin 2 → Nat) a + S8x3200.size a ≤ S8x3200.size a
  h_S8x3200 : 0 < S8x3200.numel
  inb_S128x16000_S128x16000_0_0 : ∀ a, (![0, 0] : Fin 2 → Nat) a + S128x16000.size a ≤ S128x16000.size a
  h_S128x16000 : 0 < S128x16000.numel
  shapeCasts_S128x16000_S128x16000 : S128x16000.ShapeCasts S128x16000
  inb_S64x16000_S64x16000_0_0 : ∀ a, (![0, 0] : Fin 2 → Nat) a + S64x16000.size a ≤ S64x16000.size a
  h_S64x16000 : 0 < S64x16000.numel
  shapeCasts_S64x16000_S64x16000 : S64x16000.ShapeCasts S64x16000
  reduces_S128x16000_S128 : S128x16000.Reduces [1] S128
  shapeCasts_S128_S128x1 : S128.ShapeCasts S128x1
  reduces_S64x16000_S64 : S64x16000.Reduces [1] S64
  shapeCasts_S64_S1x64 : S64.ShapeCasts S1x64
  bitsLt_bf16_f32 : FTy.bits .bf16 < FTy.bits .f32
  broadcasts_S128x1_S128x64 : S128x1.Broadcasts S128x64
  broadcasts_S1x64_S128x64 : S1x64.Broadcasts S128x64
  inb_S128x64_S128x64_0_0 : ∀ a, (![0, 0] : Fin 2 → Nat) a + S128x64.size a ≤ S128x64.size a
  h_S128x64 : 0 < S128x64.numel
  dot_S128x16000_S64x16000_S128x64_1_1_0_0_n_n_wf : DotDims.WF S128x16000 S64x16000 S128x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x3200.size a ≤ S64x128x16000.size a
  hwx0_0 : ∀ i : grid0.Coords, EltTy.bits .f32 = 32 ∨ (Rect.block (s := S64x128x16000) S8x128x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3200.size a ≤ S64x16000.size a
  hwx0_1 : ∀ i : grid0.Coords, EltTy.bits .f32 = 32 ∨ (Rect.block (s := S64x16000) S8x3200.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x16000.size a ≤ S128x16000.size a
  hwx1_0 : ∀ i : grid1.Coords, EltTy.bits .f32 = 32 ∨ (Rect.block (s := S128x16000) S128x16000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16000.size a ≤ S64x16000.size a
  hwx1_1 : ∀ i : grid1.Coords, EltTy.bits .f32 = 32 ∨ (Rect.block (s := S64x16000) S64x16000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)

variable [Facts₀]

def dot_S128x16000_S64x16000_S128x64_1_1_0_0_n_n : DotDims S128x16000 S64x16000 S128x64 where
  lhsContracting := [1]
  rhsContracting := [1]
  lhsNonContracting := [0]
  rhsNonContracting := [0]
  lhsBatch := []
  rhsBatch := []
  wf := dot_S128x16000_S64x16000_S128x64_1_1_0_0_n_n_wf

abbrev win0_0 : Pipeline.Window sig grid0 :=
  Pipeline.Window.ofSpec (Memref.whole main_v1) S8x128x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x3200.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S128x16000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S64x16000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S128x640x5x5 : Shape := ⟨4, ![128, 640, 5, 5]⟩
abbrev S64x128x640x5x5 : Shape := ⟨5, ![64, 128, 640, 5, 5]⟩
abbrev S64x128x16000 : Shape := ⟨3, ![64, 128, 16000]⟩
abbrev S128x16000 : Shape := ⟨2, ![128, 16000]⟩
abbrev S_ : Shape := ⟨0, ![]⟩
abbrev S64x16000 : Shape := ⟨2, ![64, 16000]⟩
abbrev S128 : Shape := ⟨1, ![128]⟩
abbrev S128x1 : Shape := ⟨2, ![128, 1]⟩
abbrev S64 : Shape := ⟨1, ![64]⟩
abbrev S1x64 : Shape := ⟨2, ![1, 64]⟩
abbrev S128x64 : Shape := ⟨2, ![128, 64]⟩

abbrev nBuf : Space → Nat
  | .hbm => 26
  | .vmem => 0
  | .smem => 0
  | _ => 0

abbrev bufTy : (tb : Table) → Fin (tcTables nBuf tb) → BufTy
  | .hbm, ⟨0, _⟩ => ⟨S128x640x5x5, .f32⟩
  | .hbm, ⟨1, _⟩ => ⟨S64x128x640x5x5, .f32⟩
  | .hbm, ⟨2, _⟩ => ⟨S64x128x16000, .f32⟩
  | .hbm, ⟨3, _⟩ => ⟨S128x16000, .f32⟩
  | .hbm, ⟨4, _⟩ => ⟨S_, .f32⟩
  | .hbm, ⟨5, _⟩ => ⟨S64x16000, .f32⟩
  | .hbm, ⟨6, _⟩ => ⟨S_, .f32⟩
  | .hbm, ⟨7, _⟩ => ⟨S64x16000, .f32⟩
  | .hbm, ⟨8, _⟩ => ⟨S64x16000, .f32⟩
  | .hbm, ⟨9, _⟩ => ⟨S128x16000, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S64x16000, .f32⟩
  | .hbm, ⟨14, _⟩ => ⟨S_, .f32⟩
  | .hbm, ⟨15, _⟩ => ⟨S64, .f32⟩
  | .hbm, ⟨16, _⟩ => ⟨S1x64, .f32⟩
  | .hbm, ⟨17, _⟩ => ⟨S128x64, .f32⟩
  | .hbm, ⟨18, _⟩ => ⟨S128x64, .f32⟩
  | .hbm, ⟨19, _⟩ => ⟨S128x64, .f32⟩
  | .hbm, ⟨20, _⟩ => ⟨S128x64, .f32⟩
  | .hbm, ⟨21, _⟩ => ⟨S_, .f32⟩
  | .hbm, ⟨22, _⟩ => ⟨S128x64, .f32⟩
  | .hbm, ⟨23, _⟩ => ⟨S128x64, .f32⟩
  | .hbm, ⟨24, _⟩ => ⟨S128x64, .f32⟩
  | .hbm, ⟨25, _⟩ => ⟨S128x64, .f32⟩
  | _, _ => ⟨S128x640x5x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  shapeCasts_S64x128x640x5x5_S64x128x16000 : S64x128x640x5x5.ShapeCasts S64x128x16000
  shapeCasts_S128x640x5x5_S128x16000 : S128x640x5x5.ShapeCasts S128x16000
  reducesTo_S64x128x16000_S64x16000_d1 : S64x128x16000.ReducesTo [1] S64x16000
  h_S_ : 0 < S_.numel
  bcast_S_S64x16000 : S_.BroadcastsInDim S64x16000 (![] : Fin 0 → Fin S64x16000.rank)
  reducesTo_S128x16000_S128_d1 : S128x16000.ReducesTo [1] S128
  bcast_S128_S128x1_0 : S128.BroadcastsInDim S128x1 (![0] : Fin 1 → Fin S128x1.rank)
  reducesTo_S64x16000_S64_d1 : S64x16000.ReducesTo [1] S64
  bcast_S64_S1x64_1 : S64.BroadcastsInDim S1x64 (![1] : Fin 1 → Fin S1x64.rank)
  bcast_S128x1_S128x64_0_1 : S128x1.BroadcastsInDim S128x64 (![0, 1] : Fin 2 → Fin S128x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  dot_S128x16000_S64x16000_S128x64_1_1_0_0_n_n_wf : DotDims.WF S128x16000 S64x16000 S128x64 [1] [1] [0] [0] [] []

variable [Facts₀]

def dot_S128x16000_S64x16000_S128x64_1_1_0_0_n_n : DotDims S128x16000 S64x16000 S128x64 where
  lhsContracting := [1]
  rhsContracting := [1]
  lhsNonContracting := [0]
  rhsNonContracting := [0]
  lhsBatch := []
  rhsBatch := []
  wf := dot_S128x16000_S64x16000_S128x64_1_1_0_0_n_n_wf

class Facts : Prop extends Facts₀ where

variable [Facts]
-- ==== Proof.LibMidSum.lean ====
/-
  A sum along the middle axis of a three-dimensional array, read at an index.

  Reducing an [a, b, c] array over its second axis leaves an [a, c] array; at (r, e) the kernel's vector reduction
  from the zero accumulator is the plain sum, over the b positions s of the middle axis, of the entries (r, s, e).
  Stated for any extents and any float type.
-/
import Idealize.ShloMosaic.Lib.ValueIdx
import Idealize.ShloMosaic.PureOps.Ideal.Laws

noncomputable section

open scoped BigOperators

namespace MidSum

open Idealize.ShloMosaic Idealize.ShloMosaic.ValueIdx

variable {a b c : Nat}

/-- The reduced index (r, e) with the middle coordinate k put back is (r, k, e). -/
theorem lift_ix3 (h : (⟨3, ![a, b, c]⟩ : Shape).Reduces [1] (⟨2, ![a, c]⟩ : Shape)) (r : Fin a) (e : Fin c)
    (k : Fin ((⟨3, ![a, b, c]⟩ : Shape).size 1)) : h.lift (ix2 r e) k = ix3 r (⟨k.val, k.isLt⟩ : Fin b) e := by
  funext d; apply Fin.ext
  fin_cases d <;> rfl

/-- The kernel's sum over the middle axis from the zero word, at (r, e): the sum over s of the entries (r, s, e). -/
theorem multiReduction_apply {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.add.neutral φ hφ) (r : Fin a) (e : Fin c) :
    multiReduction .add [1] (⟨2, ![a, c]⟩ : Shape) src acc h hφ hacc (ix2 r e) = ∑ s : Fin b, src (ix3 r s e) := by
  refine (Ideal.multiReduction_add_single src acc h hφ hacc (ix2 r e)).trans ?_
  exact Finset.sum_congr rfl fun k _ => congrArg src (lift_ix3 h r e k)

end MidSum

end
-- ==== Proof.MeanEntry.lean ====
/-
  The first kernel's body at an entry.

  The body takes a block x of 8 classes by 128 shots by 3200 features and writes, for class r and feature e of the
  block, the mean over the shots: the sum over s of x(r, s, e), divided by 128.  The division is the exact instance's
  own, by the word that spells 128.0; it is kept as it is, because the reference divides by the same word.
-/
import proofs.«173425_j4698694222630_1_alg».proof.Proof.Gen.KernelIdeal.Skeleton
import proofs.«173425_j4698694222630_1_alg».proof.Proof.LibMidSum
import Idealize.ShloMosaic.Lib.Pipeline.Value
import Idealize.ShloMosaic.Lib.ValueIdx

noncomputable section

open scoped BigOperators

namespace Cert.KernelIdeal.MeanValue

open Idealize.ShloMosaic Idealize.ShloMosaic.ValueIdx Cert.KernelIdeal Cert.KernelIdeal.Gen

/-- The mean over the shots of one (class, feature) pair of a three-dimensional array, as the exact instance computes
    it: the plain sum over the middle axis divided by the word 128.0. -/
def shotMean {a c : Nat} (x : (⟨3, ![a, 128, c]⟩ : Shape).Idx → EReal) (r : Fin a) (e : Fin c) : EReal :=
  Ideal.div (∑ s : Fin 128, x (ix3 r s e)) (Ideal.ofBits .f32 0x43000000#32)

/-- The body's stored value at (r, e) is the mean over the shots of the loaded block at (r, ·, e). -/
theorem mean_entry (x : FVec Ideal S8x128x3200 .f32) (r : Fin 8) (e : Fin 3200) :
    k0_pay1 (F := Ideal) x (ix2 r e) = shotMean x r e := by
  unfold k0_pay1 shotMean
  dsimp only
  rw [divf_apply, shapeCast_self]
  refine congrArg₂ Ideal.div ?_ rfl
  exact MidSum.multiReduction_apply x _ _ _ _ r e

end Cert.KernelIdeal.MeanValue

end
-- ==== Proof.ProtoArray.lean ====
/-
  The prototype array after the first region.

  The first region walks a grid of 8 by 5 points.  Point (i, j) fetches classes 8i..8i+7, all 128 shots and features
  3200j..3200j+3199 of the support array, and writes back the block of the prototype array at classes 8i..8i+7 and
  features 3200j..3200j+3199: the means over the shots.  So what a point writes back is its block of ONE function of
  the support array — entry (c, d) is the mean over the shots s of support(c, s, d) —, the 40 blocks tile the 64 by
  16000 array (the point that covers (c, d) is (c / 8, d / 3200)), and the array ends holding that function.
-/
import proofs.«173425_j4698694222630_1_alg».proof.Proof.Gen.KernelIdeal.Frame
import proofs.«173425_j4698694222630_1_alg».proof.Proof.MeanEntry
import Idealize.ShloMosaic.Lib.Pipeline.Value
import Idealize.ShloMosaic.Lib.ValueIdx

set_option maxRecDepth 16384

noncomputable section

open scoped BigOperators

namespace Cert.KernelIdeal.ProtoValue

open Idealize.ShloMosaic Idealize.ShloMosaic.TcCoe Idealize.ShloMosaic.ValueIdx Idealize.SL.Sem
open Cert.KernelIdeal Cert.KernelIdeal.Gen Cert.KernelIdeal.MeanValue
open Idealize.ShloMosaic.Pipeline (Dat)

/-- The prototypes of a support array: entry (c, d) is the mean over the shots of support(c, ·, d). -/
def protoOf (x : FVec Ideal S64x128x16000 .f32) : FVec Ideal S64x16000 .f32 := fun i => shotMean x (i 0) (i 1)

theorem protoOf_apply (x : FVec Ideal S64x128x16000 .f32) (c : Fin 64) (d : Fin 16000) :
    protoOf x (ix2 c d) = shotMean x c d := rfl

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The support array as the region finds it, and the block of it a point fetches, at their literal types. -/
abbrev sarr (c : Dev nD) : FVec Ideal S64x128x16000 .f32 := V c main_v1
abbrev sblk (c : Dev nD) (t : Fin cfg0.N) : FVec Ideal S8x128x3200 .f32 := iblk0 V c 0 t

/-- The printed index maps over the 40 points: the input block moves with the output block on the class axis and on
    the feature axis and stays at 0 on the shot axis; the output's block indices stay below 8 and 5. -/
theorem idx_facts : ∀ t : Fin cfg0.N, win0_0.index t (0 : Fin 3) = win0_1.index t (0 : Fin 2)
    ∧ win0_0.index t (1 : Fin 3) = 0
    ∧ win0_0.index t (2 : Fin 3) = win0_1.index t (1 : Fin 2)
    ∧ win0_1.index t (0 : Fin 2) ≤ 7
    ∧ win0_1.index t (1 : Fin 2) ≤ 4 :=
  (by decide +kernel : ∀ t : Fin grid0.N, _)

/-- Every block index (class block below 8, feature block below 5) is some point's. -/
theorem idx_onto : ∀ (q0 : Fin 8) (q1 : Fin 5), ∃ t : Fin cfg0.N, win0_1.index t = ![q0.val, q1.val] :=
  (by decide +kernel : ∀ (q0 : Fin 8) (q1 : Fin 5), ∃ t : Fin grid0.N, win0_1.index t = ![q0.val, q1.val])

/-- The fetched block at (r, s, e) is the support array at (8·i + r, s, 3200·j + e), (i, j) the output block's index. -/
theorem sblk_apply (c : Dev nD) (t : Fin cfg0.N) (r : Fin 8) (s : Fin 128) (e : Fin 3200) :
    sblk V c t (ix3 r s e)
      = sarr V c (ix3 ((((cfg0.win 1).blk t).view.emb (ix2 r e)) 0) s ((((cfg0.win 1).blk t).view.emb (ix2 r e)) 1)) := by
  show V c main_v1 (((cfg0.win 0).blk t).view.emb (ix3 r s e)) = V c main_v1 _
  refine congrArg (V c main_v1) (funext fun a => Fin.ext ?_)
  obtain ⟨e0, e1, e2, -, -⟩ := idx_facts t
  match a with
  | ⟨0, _⟩ => show win0_0.index t (0 : Fin 3) * 8 + 1 * r.val = win0_1.index t (0 : Fin 2) * 8 + 1 * r.val; omega
  | ⟨1, _⟩ => show win0_0.index t (1 : Fin 3) * 128 + 1 * s.val = s.val; omega
  | ⟨2, _⟩ => show win0_0.index t (2 : Fin 3) * 3200 + 1 * e.val = win0_1.index t (1 : Fin 2) * 3200 + 1 * e.val; omega

/-- WHAT A POINT WRITES BACK is its block of the prototypes of the support array as the region finds it. -/
theorem flushed_eq (c : Dev nD) (t : Fin cfg0.N) :
    (dat0 V c).flushed 1 t = ((cfg0.win 1).blk t).view.read (Elt Ideal) (protoOf (sarr V c)) := by
  show (cfg0.win 1).cut (grid0.coords t) ((dat0 V c).after 1 t) = _
  rw [after0_1]
  unfold out0_1
  rw [View.canon_unit_zero zeros2]
  simp only [View.ld_unit_zero (S := S8x128x3200) zeros3]
  funext j
  obtain ⟨r, e, rfl⟩ : ∃ (r : Fin 8) (e : Fin 3200), j = ix2 r e := ⟨j 0, j 1, eq_ix2 j⟩
  show k0_pay1 (F := Ideal) (sblk V c t) (ix2 r e)
    = shotMean (sarr V c) ((((cfg0.win 1).blk t).view.emb (ix2 r e)) 0) ((((cfg0.win 1).blk t).view.emb (ix2 r e)) 1)
  refine (mean_entry (sblk V c t) r e).trans ?_
  unfold shotMean
  exact congrArg₂ Ideal.div (Finset.sum_congr rfl fun s _ => sblk_apply V c t r s e) rfl

/-- An index of the prototype array is in a point's block iff each coordinate is in the block's range on its axis. -/
theorem mem_blk (t : Fin cfg0.N) (i : S64x16000.Idx) :
    i ∈ ((cfg0.win 1).blk t).view.set ↔ ∀ a : Fin 2, win0_1.index t a * S8x3200.size a ≤ (i a).val ∧ (i a).val < win0_1.index t a * S8x3200.size a + S8x3200.size a := by
  show i ∈ ((View.whole main_v2).slice (win0_1.rect t)).set ↔ _
  rw [View.set_slice_whole, Rect.mem_set_unit]
  exact Iff.rfl

/-- The 40 blocks tile the array: (c, d) is in the block of the point whose index is (c / 8, d / 3200). -/
theorem cover (i : S64x16000.Idx) : ∃ t : Fin cfg0.N, (cfg0.win 1).flush t = true ∧ i ∈ ((cfg0.win 1).blk t).view.set := by
  have hi0 : (i 0).val < 64 := (i 0).isLt
  have hi1 : (i 1).val < 16000 := (i 1).isLt
  obtain ⟨t, ht⟩ := idx_onto ⟨(i 0).val / 8, by omega⟩ ⟨(i 1).val / 3200, by omega⟩
  have q0 : win0_1.index t (0 : Fin 2) = (i 0).val / 8 := congrFun ht 0
  have q1 : win0_1.index t (1 : Fin 2) = (i 1).val / 3200 := congrFun ht 1
  refine ⟨t, flush0_1 t, ?_⟩
  rw [mem_blk]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 3200 ≤ (i 1).val ∧ (i 1).val < win0_1.index t (1 : Fin 2) * 3200 + 3200; omega

/-- THE ARRAY after the region: the prototypes of the support array as the region found it. -/
theorem proto_final (c : Dev nD) : (dat0 V c).arrAt 1 cfg0.N = protoOf (sarr V c) :=
  (dat0 V c).arrAt_eq_of_cover 1 (protoOf (sarr V c)) (fun t _ => flushed_eq V c t) cover

end Cert.KernelIdeal.ProtoValue

end
-- ==== Proof.DistArray.lean ====
/-
  The result array after the second region.

  The second region has one grid point; each of its three windows is the whole of its array (block index (0, 0), the
  block as large as the array).  So the blocks the body loads ARE the query matrix and the prototype matrix as the
  region finds them, and what the one point writes back — the body's stored value — IS the whole result array.
-/
import proofs.«173425_j4698694222630_1_alg».proof.Proof.Gen.KernelIdeal.Frame
import Idealize.ShloMosaic.Lib.Pipeline.Value
import Idealize.ShloMosaic.Lib.ValueIdx

set_option maxRecDepth 16384

noncomputable section

namespace Cert.KernelIdeal.DistArrayValue

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The query matrix and the prototype matrix as the region finds them, at their literal types. -/
abbrev qarr (c : Dev nD) : FVec Ideal S128x16000 .f32 := V c main_v0
abbrev parr (c : Dev nD) : FVec Ideal S64x16000 .f32 := V c main_v2
/-- The blocks the one point fetches. -/
abbrev qblk (c : Dev nD) (t : Fin cfg1.N) : FVec Ideal S128x16000 .f32 := iblk1 V c 0 t
abbrev pblk (c : Dev nD) (t : Fin cfg1.N) : FVec Ideal S64x16000 .f32 := iblk1 V c 1 t

/-- Every window's block index is (0, 0) at the one point. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The fetched query block is the query matrix. -/
theorem qblk_eq (c : Dev nD) (t : Fin cfg1.N) : qblk V c t = qarr V c := by
  funext j
  show V c main_v0 (((cfg1.win 0).blk t).view.emb j) = V c main_v0 j
  refine congrArg (V c main_v0) (funext fun a => Fin.ext ?_)
  obtain ⟨e0, e1, -, -, -, -⟩ := idx_facts t
  match a with
  | ⟨0, _⟩ => show win1_0.index t (0 : Fin 2) * 128 + 1 * (j 0).val = (j 0).val; omega
  | ⟨1, _⟩ => show win1_0.index t (1 : Fin 2) * 16000 + 1 * (j 1).val = (j 1).val; omega

/-- The fetched prototype block is the prototype matrix. -/
theorem pblk_eq (c : Dev nD) (t : Fin cfg1.N) : pblk V c t = parr V c := by
  funext j
  show V c main_v2 (((cfg1.win 1).blk t).view.emb j) = V c main_v2 j
  refine congrArg (V c main_v2) (funext fun a => Fin.ext ?_)
  obtain ⟨-, -, e0, e1, -, -⟩ := idx_facts t
  match a with
  | ⟨0, _⟩ => show win1_1.index t (0 : Fin 2) * 64 + 1 * (j 0).val = (j 0).val; omega
  | ⟨1, _⟩ => show win1_1.index t (1 : Fin 2) * 16000 + 1 * (j 1).val = (j 1).val; omega

/-- The output block's position in the result array is the identity. -/
theorem out_emb (t : Fin cfg1.N) (j : S128x64.Idx) : ((cfg1.win 2).blk t).view.emb j = j := by
  funext a; refine Fin.ext ?_
  obtain ⟨-, -, -, -, e0, e1⟩ := idx_facts t
  match a with
  | ⟨0, _⟩ => show win1_2.index t (0 : Fin 2) * 128 + 1 * (j 0).val = (j 0).val; omega
  | ⟨1, _⟩ => show win1_2.index t (1 : Fin 2) * 64 + 1 * (j 1).val = (j 1).val; omega

/-- The result array the region leaves, as one function of the two matrices it found. -/
def distOf (q : FVec Ideal S128x16000 .f32) (p : FVec Ideal S64x16000 .f32) : FVec Ideal S128x64 .f32 :=
  k1_pay1 (F := Ideal) q p

/-- WHAT THE POINT WRITES BACK is (its block, the whole, of) the body's value of the two matrices. -/
theorem flushed_eq (c : Dev nD) (t : Fin cfg1.N) :
    (dat1 V c).flushed 2 t = ((cfg1.win 2).blk t).view.read (Elt Ideal) (distOf (qarr V c) (parr V c)) := by
  show (cfg1.win 2).cut (grid1.coords t) ((dat1 V c).after 2 t) = _
  rw [after1_2]
  unfold out1_2
  rw [View.canon_unit_zero zeros2]
  simp only [View.ld_unit_zero (S := S128x16000) zeros2, View.ld_unit_zero (S := S64x16000) zeros2]
  funext j
  show k1_pay1 (F := Ideal) (qblk V c t) (pblk V c t) j = distOf (qarr V c) (parr V c) (((cfg1.win 2).blk t).view.emb j)
  rw [out_emb, qblk_eq, pblk_eq]
  rfl

/-- An index of the result array is in the point's block iff each coordinate is in the block's range on its axis. -/
theorem mem_blk (t : Fin cfg1.N) (i : S128x64.Idx) :
    i ∈ ((cfg1.win 2).blk t).view.set ↔ ∀ a : Fin 2, win1_2.index t a * S128x64.size a ≤ (i a).val ∧ (i a).val < win1_2.index t a * S128x64.size a + S128x64.size a := by
  show i ∈ ((View.whole main_v3).slice (win1_2.rect t)).set ↔ _
  rw [View.set_slice_whole, Rect.mem_set_unit]
  exact Iff.rfl

/-- The one block is the whole array. -/
theorem cover (i : S128x64.Idx) : ∃ t : Fin cfg1.N, (cfg1.win 2).flush t = true ∧ i ∈ ((cfg1.win 2).blk t).view.set := by
  have hi0 : (i 0).val < 128 := (i 0).isLt
  have hi1 : (i 1).val < 64 := (i 1).isLt
  let t : Fin cfg1.N := ⟨0, by decide⟩
  obtain ⟨-, -, -, -, e0, e1⟩ := idx_facts t
  refine ⟨t, flush1_2 t, ?_⟩
  rw [mem_blk]
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 64 ≤ (i 1).val ∧ (i 1).val < win1_2.index t (1 : Fin 2) * 64 + 64; omega

/-- THE ARRAY after the region: the body's value of the two matrices as the region found them. -/
theorem dist_final (c : Dev nD) : (dat1 V c).arrAt 2 cfg1.N = distOf (qarr V c) (parr V c) :=
  (dat1 V c).arrAt_eq_of_cover 2 (distOf (qarr V c) (parr V c)) (fun t _ => flushed_eq V c t) cover

end Cert.KernelIdeal.DistArrayValue

end
-- ==== Proof.KernelValue.lean ====
/-
  The kernel program's result as one function of its two arguments.

  @main reshapes the query to 128 by 16000 and the support array to 64 by 128 by 16000, then runs the two regions.  The
  first region leaves the prototype array at the prototypes of the reshaped support array; the second finds the
  reshaped query untouched and that prototype array, and leaves the result array at its body's value of the two.  So
  the result is the second body's value of (the reshaped query, the prototypes of the reshaped support array).
-/
import proofs.«173425_j4698694222630_1_alg».proof.Proof.Gen.KernelIdeal.Frame
import proofs.«173425_j4698694222630_1_alg».proof.Proof.KernelIdealRun
import proofs.«173425_j4698694222630_1_alg».proof.Proof.ProtoArray
import proofs.«173425_j4698694222630_1_alg».proof.Proof.DistArray
import Idealize.ShloMosaic.Lib.StableHlo.Run

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen
open Cert.KernelIdeal.ProtoValue (protoOf sarr proto_final)
open Cert.KernelIdeal.DistArrayValue (distOf qarr parr dist_final)

/-- The program's result of its two argument arrays: the second body's value of the reshaped query and the prototypes
    of the reshaped support array. -/
def resultOf (x0 : FVec Ideal S128x640x5x5 .f32) (x1 : FVec Ideal S64x128x640x5x5 .f32) : FVec Ideal S128x64 .f32 :=
  distOf (shapeCast S128x16000 x0 shapeCasts_S128x640x5x5_S128x16000)
    (protoOf (shapeCast S64x128x16000 x1 shapeCasts_S64x128x640x5x5_S64x128x16000))

variable (m : (ℓ : Loc nD τ sig) → Buf (Elt Ideal) ℓ) (ρ : Dev nD → PrngReg)

/-- The support array at the first region's entry is the reshaped support argument. -/
theorem support_entry (c : Dev nD) :
    sarr (V1 m ρ) c = shapeCast S64x128x16000 (m ((c : Thread nD τ).loc main_arg1)) shapeCasts_S64x128x640x5x5_S64x128x16000 := by
  show StableHlo.after hostOps0 (W0 m ρ c) (Proc.devRef .tc main_v1) = _
  after_results
  rfl

/-- The query matrix at the second region's entry is the reshaped query argument: the first region does not touch it. -/
theorem query_entry (c : Dev nD) :
    qarr (V2 m ρ) c = shapeCast S128x16000 (m ((c : Thread nD τ).loc main_arg0)) shapeCasts_S128x640x5x5_S128x16000 := by
  show W2 m ρ c (Proc.devRef .tc main_v0) = _
  rw [W2_of_ne m ρ c main_v0 (by decide)]
  show StableHlo.after hostOps0 (W0 m ρ c) (Proc.devRef .tc main_v0) = _
  after_results
  rfl

/-- The prototype matrix at the second region's entry is what the first region left: the prototypes of the support
    array the first region found. -/
theorem proto_entry (c : Dev nD) : parr (V2 m ρ) c = protoOf (sarr (V1 m ρ) c) := by
  show W2 m ρ c (Proc.devRef .tc (Pipeline.arrRef spec0 1)) = _
  rw [W2_arr m ρ c 1]
  exact proto_final (V1 m ρ) c

/-- The result array after the last region is the program's function of the launch contents of the two arguments. -/
theorem result_eq (c : Dev nD) :
    W3 m ρ c (Proc.devRef .tc main_v3)
      = resultOf (m ((c : Thread nD τ).loc main_arg0)) (m ((c : Thread nD τ).loc main_arg1)) := by
  show W3 m ρ c (Proc.devRef .tc (Pipeline.arrRef spec1 2)) = _
  rw [W3_arr m ρ c 2, dist_final (V2 m ρ) c, query_entry, proto_entry, support_entry]
  rfl

/-- THE RUN: every weakly fair execution terminates, nothing faulting, with the result array at the program's function
    of the arguments and the arguments unchanged. -/
theorem run : θ_run defs (onTc (τ := τ) (main (F := Ideal))) ⟨m, fun _ => 0, ρ⟩ (fun r => ∀ c : Dev nD,
      r.2.mem ((c.tc : Thread nD τ).loc main_v3) = resultOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (Cert.KernelIdeal.Named.run_named m ρ)

end Cert.KernelIdeal.KernelValue

end
-- ==== Proof.LibDotForms.lean ====
/-
  Two transposed matrix products read at an entry.

  `A · Bᵀ` — an M×K array times the transpose of an N×K array: both operands are contracted along their second axis,
  and the result entry (p, q) is `∑ i : Fin K, lhs (p, i) * rhs (q, i)`.
  `Aᵀ · B` — the transpose of a K×M array times a K×N array: both operands are contracted along their first axis,
  and the result entry (p, q) is `∑ i : Fin K, lhs (i, p) * rhs (i, q)`.
  Each statement is for ANY record with those dimension numbers and no batch axes, at every size, for a kernel's
  product into a zero accumulator and for a host `dot_general` alike.
-/
import Idealize.ShloMosaic.Lib.ValueIdx
import Idealize.ShloMosaic.PureOps.Ideal.Laws

noncomputable section

open scoped BigOperators

namespace DotForms

open Idealize.ShloMosaic Idealize.ShloMosaic.ValueIdx

variable {M K N : Nat}

/-- `A · Bᵀ`: contract axis 1 of the left operand with axis 1 of the right one; the operands' axes 0 are the result's. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- `Aᵀ · B`: contract axis 0 of the left operand with axis 0 of the right one; the operands' axes 1 are the result's. -/
structure IsAtB (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section ABt

variable {d : DotDims ⟨2, ![M, K]⟩ ⟨2, ![N, K]⟩ ⟨2, ![M, N]⟩}

/-- `A · Bᵀ`: the left operand's row coordinate is the result's row. -/
theorem abt_lhs_row (h : IsABt d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `A · Bᵀ`: the right operand's row coordinate is the result's column. -/
theorem abt_rhs_row (h : IsABt d) (j : (⟨2, ![M, N]⟩ : Shape).Idx) (k : d.contr.Idx) :
    (d.rhsIdx j k 0 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem abt_contr_rank (h : IsABt d) : d.contr.rank = 1 := by
  rw [d.rank_contr, h.lc]; rfl

theorem abt_contr_size (h : IsABt d) : d.contr.size ⟨0, by rw [abt_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `A · Bᵀ`, the sum: over the one contracted axis (each operand's second), entry by entry. -/
theorem abt_sum_eq (h : IsABt d) (lhs : (⟨2, ![M, K]⟩ : Shape).Idx → EReal) (rhs : (⟨2, ![N, K]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 q i) := by
  rw [← Equiv.sum_comp (contrEquiv1 d K (abt_contr_rank h) (abt_contr_size h)).symm]
  refine Finset.sum_congr rfl fun i _ => ?_
  have hk := contrEquiv1_symm_val d K (abt_contr_rank h) (abt_contr_size h) i
  have el : d.lhsIdx (ix2 p q) ((contrEquiv1 d K (abt_contr_rank h) (abt_contr_size h)).symm i) = ix2 p i := by
    funext a; refine Fin.ext ?_
    match a with
    | ⟨0, _⟩ => exact abt_lhs_row h _ _
    | ⟨1, _⟩ => exact (d.lhsIdx_val_of_single h.lc _ _).trans hk
  have er : d.rhsIdx (ix2 p q) ((contrEquiv1 d K (abt_contr_rank h) (abt_contr_size h)).symm i) = ix2 q i := by
    funext a; refine Fin.ext ?_
    match a with
    | ⟨0, _⟩ => exact abt_rhs_row h _ _
    | ⟨1, _⟩ => exact (d.rhsIdx_val_of_single h.rc _ _).trans hk
  rw [el, er]

end ABt

section AtB

variable {d : DotDims ⟨2, ![K, M]⟩ ⟨2, ![K, N]⟩ ⟨2, ![M, N]⟩}

/-- `Aᵀ · B`: the left operand's column coordinate is the result's row. -/
theorem atb_lhs_col (h : IsAtB d) (j : (⟨2, ![M, N]⟩ : Shape).Idx) (k : d.contr.Idx) :
    (d.lhsIdx j k 1 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `Aᵀ · B`: the right operand's column coordinate is the result's column. -/
theorem atb_rhs_col (h : IsAtB d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem atb_contr_rank (h : IsAtB d) : d.contr.rank = 1 := by
  rw [d.rank_contr, h.lc]; rfl

theorem atb_contr_size (h : IsAtB d) : d.contr.size ⟨0, by rw [atb_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `Aᵀ · B`, the sum: over the one contracted axis (each operand's first), entry by entry. -/
theorem atb_sum_eq (h : IsAtB d) (lhs : (⟨2, ![K, M]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 i p) * rhs (ix2 i q) := by
  rw [← Equiv.sum_comp (contrEquiv1 d K (atb_contr_rank h) (atb_contr_size h)).symm]
  refine Finset.sum_congr rfl fun i _ => ?_
  have hk := contrEquiv1_symm_val d K (atb_contr_rank h) (atb_contr_size h) i
  have el : d.lhsIdx (ix2 p q) ((contrEquiv1 d K (atb_contr_rank h) (atb_contr_size h)).symm i) = ix2 i p := by
    funext a; refine Fin.ext ?_
    match a with
    | ⟨0, _⟩ => exact (d.lhsIdx_val_of_single h.lc _ _).trans hk
    | ⟨1, _⟩ => exact atb_lhs_col h _ _
  have er : d.rhsIdx (ix2 p q) ((contrEquiv1 d K (atb_contr_rank h) (atb_contr_size h)).symm i) = ix2 i q := by
    funext a; refine Fin.ext ?_
    match a with
    | ⟨0, _⟩ => exact (d.rhsIdx_val_of_single h.rc _ _).trans hk
    | ⟨1, _⟩ => exact atb_rhs_col h _ _
  rw [el, er]

end AtB

/-- A kernel's `A · Bᵀ` into a zero accumulator, at the exact instance, read at an entry. -/
theorem abt_matmul_zero_apply {d : DotDims ⟨2, ![M, K]⟩ ⟨2, ![N, K]⟩ ⟨2, ![M, N]⟩} (h : IsABt d) {φ₁ φ₂ : FTy}
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ i : Fin K, lhs (ix2 p i) * rhs (ix2 q i) := by
  exact (Ideal.matmul_constant_zero_apply d prec lhs rhs (ix2 p q)).trans (abt_sum_eq h lhs rhs p q)

/-- A kernel's `Aᵀ · B` into a zero accumulator, at the exact instance, read at an entry. -/
theorem atb_matmul_zero_apply {d : DotDims ⟨2, ![K, M]⟩ ⟨2, ![K, N]⟩ ⟨2, ![M, N]⟩} (h : IsAtB d) {φ₁ φ₂ : FTy}
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 i p) * rhs (ix2 i q) := by
  exact (Ideal.matmul_constant_zero_apply d prec lhs rhs (ix2 p q)).trans (atb_sum_eq h lhs rhs p q)

/-- The host's `A · Bᵀ` as a `dot_general`, at the exact instance, read at an entry: the same sum. -/
theorem abt_dotGeneral_apply {d : DotDims ⟨2, ![M, K]⟩ ⟨2, ![N, K]⟩ ⟨2, ![M, N]⟩} (h : IsABt d) {φ₁ φ₂ : FTy}
    (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ i : Fin K, lhs (ix2 p i) * rhs (ix2 q i) :=
  (Ideal.dotGeneral_apply d prec sched lhs rhs (ix2 p q)).trans (abt_sum_eq h lhs rhs p q)

/-- The host's `Aᵀ · B` as a `dot_general`, at the exact instance, read at an entry: the same sum. -/
theorem atb_dotGeneral_apply {d : DotDims ⟨2, ![K, M]⟩ ⟨2, ![K, N]⟩ ⟨2, ![M, N]⟩} (h : IsAtB d) {φ₁ φ₂ : FTy}
    (prec : Option ContractPrecision) (sched : HostSchedule)
    (lhs : FVec Ideal ⟨2, ![K, M]⟩ φ₁) (rhs : FVec Ideal ⟨2, ![K, N]⟩ φ₂) (p : Fin M) (q : Fin N) :
    FloatOps.dotGeneral d prec sched lhs rhs (ix2 p q) = ∑ i : Fin K, lhs (ix2 i p) * rhs (ix2 i q) :=
  (Ideal.dotGeneral_apply d prec sched lhs rhs (ix2 p q)).trans (atb_sum_eq h lhs rhs p q)

end DotForms

end
-- ==== Proof.LibRowSum.lean ====
/-
  A sum along the rows of a two-dimensional array, read at a row.

  Reducing an [m, n] array over its second axis leaves an [m] array; at row p the kernel's vector reduction from
  the zero accumulator is the plain sum of the row's n entries.  Stated for any extents.
-/
import Idealize.ShloMosaic.Lib.ValueIdx
import Idealize.ShloMosaic.PureOps.Ideal.Laws

noncomputable section

open scoped BigOperators

namespace RowSum

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The kernel's sum over the second axis from the zero word, at row p: the sum of the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] (⟨1, ![m]⟩ : Shape) src acc h hφ hacc (ix1 p) = ∑ k : Fin n, src (ix2 p k) := by
  refine (Ideal.multiReduction_add_single src acc h hφ hacc (ix1 p)).trans ?_
  exact Finset.sum_congr rfl fun k _ => congrArg src (lift_ix2 h p k)

end RowSum

end
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.LibRowLayout.lean ====
/-
  A column turned into a row and spread over a matrix, read at an index.

  An [a, 1] column transposed is a [1, a] row whose entry (0, q) is the column's entry (q, 0); a [1, b] row
  broadcast to [a, b] has at (p, q) the row's entry (0, q): every entry of column q sees that column's own value.
  Stated for any element type and any extents.
-/
import Idealize.ShloMosaic.Lib.Pipeline.Value
import Idealize.ShloMosaic.Lib.ValueIdx

noncomputable section

namespace RowLayout

open Idealize.ShloMosaic Idealize.ShloMosaic.ValueIdx

/-- An [a, 1] column transposed to a [1, a] row reads, at (u, q), the column's entry (q, u). -/
theorem transpose_a1_1a_apply {α : Type} {a : ℕ} (x : (⟨2, ![a, 1]⟩ : Shape).Idx → α)
    (h : (⟨2, ![a, 1]⟩ : Shape).Transposes [1, 0] ⟨2, ![1, a]⟩) (u : Fin 1) (q : Fin a) :
    transpose ⟨2, ![1, a]⟩ [1, 0] x h (ix2 u q) = x (ix2 q u) := by
  refine transpose_apply [1, 0] x h (ix2 u q) (ix2 q u) fun b => ?_
  match b with
  | ⟨0, _⟩ => rfl
  | ⟨1, _⟩ => rfl

/-- A [1, b] row broadcast to [a, b] reads, at (p, q), the row's entry (0, q). -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end RowLayout

end
-- ==== Proof.LibRowCast.lean ====
/-
  A vector kept as a one-row matrix, read at an index.

  A [b] array cast to [1, b] is the same b numbers laid out as one row: its entry (0, q) is the vector's entry q.
  Stated for any element type and any extent.
-/
import Idealize.ShloMosaic.Lib.Pipeline.Value
import Idealize.ShloMosaic.Lib.ValueIdx

noncomputable section

namespace RowCast

open Idealize.ShloMosaic Idealize.ShloMosaic.ValueIdx

/-- A [b] array cast to [1, b] reads, at (u, q), the operand at q, whatever the unit coordinate u. -/
theorem shapeCast_b_1b_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

end RowCast

end
-- ==== Proof.DistEntry.lean ====
/-
  The second kernel's body at an entry.

  The body takes the whole query matrix q (128 by 16000) and the whole prototype matrix p (64 by 16000) and writes,
  at (b, c), zero minus ((|q_b|² + |p_c|²) − 2 · ⟨q_b, p_c⟩): the row sums of squares kept as a column and as a row and
  spread over the 128 by 64 result, the inner products by a product of q with the transpose of p into a zero
  accumulator (the narrowing of its operands to bf16 is the identity on exact values).  The words 0.0 and 2.0 are kept
  as they are.
-/
import proofs.«173425_j4698694222630_1_alg».proof.Proof.Gen.KernelIdeal.Skeleton
import proofs.«173425_j4698694222630_1_alg».proof.Proof.LibDotForms
import proofs.«173425_j4698694222630_1_alg».proof.Proof.LibRowSum
import proofs.«173425_j4698694222630_1_alg».proof.Proof.LibKeepdims
import proofs.«173425_j4698694222630_1_alg».proof.Proof.LibRowLayout
import proofs.«173425_j4698694222630_1_alg».proof.Proof.LibRowCast
import Idealize.ShloMosaic.Lib.Pipeline.Value
import Idealize.ShloMosaic.Lib.ValueIdx
import Idealize.ShloMosaic.PureOps.Ideal.Laws

noncomputable section

open scoped BigOperators

namespace Cert.KernelIdeal.DistValue

open Idealize.ShloMosaic Idealize.ShloMosaic.ValueIdx Cert.KernelIdeal Cert.KernelIdeal.Gen

/-- The negated squared distance between row b of q and row c of p, spelt as the programs compute it on exact values:
    zero minus ((sum of squares of q_b plus sum of squares of p_c) minus 2.0 times their inner product). -/
def negSqDist (q : (⟨2, ![128, 16000]⟩ : Shape).Idx → EReal) (p : (⟨2, ![64, 16000]⟩ : Shape).Idx → EReal)
    (b : Fin 128) (c : Fin 64) : EReal :=
  Ideal.ofBits .f32 0x00000000#32
    - (((∑ d : Fin 16000, q (ix2 b d) * q (ix2 b d)) + (∑ d : Fin 16000, p (ix2 c d) * p (ix2 c d)))
        - Ideal.ofBits .f32 0x40000000#32 * ∑ d : Fin 16000, q (ix2 b d) * p (ix2 c d))

/-- The product's dimension numbers: both operands contracted along their second axis. -/
theorem dot_isABt : DotForms.IsABt (M := 128) (K := 16000) (N := 64) dot_S128x16000_S64x16000_S128x64_1_1_0_0_n_n :=
  ⟨rfl, rfl, rfl, rfl, rfl, rfl⟩

/-- A row sum kept as a column and spread along the rows: entry (b, c) is row b's sum. -/
theorem col_term (v : FVec Ideal S128x16000 .f32) (b : Fin 128) (c : Fin 64) :
    broadcastTo S128x64 (shapeCast S128x1 (multiReduction .add [1] S128 v 0x00000000#32 reduces_S128x16000_S128 (.inl rfl) rfl)
        shapeCasts_S128_S128x1) broadcasts_S128x1_S128x64 (ix2 b c)
      = ∑ d : Fin 16000, v (ix2 b d) :=
  (KeepdimsLayout.broadcastTo_a1_ab_apply _ _ b c).trans
    ((KeepdimsLayout.shapeCast_a_a1_apply _ _ b 0).trans (RowSum.multiReduction_apply v _ _ _ _ b))

/-- A row sum kept as a row and spread along the columns: entry (b, c) is row c's sum. -/
theorem row_term (w : FVec Ideal S64x16000 .f32) (b : Fin 128) (c : Fin 64) :
    broadcastTo S128x64 (shapeCast S1x64 (multiReduction .add [1] S64 w 0x00000000#32 reduces_S64x16000_S64 (.inl rfl) rfl)
        shapeCasts_S64_S1x64) broadcasts_S1x64_S128x64 (ix2 b c)
      = ∑ d : Fin 16000, w (ix2 c d) :=
  (RowLayout.broadcastTo_1b_ab_apply _ _ b c).trans
    ((RowCast.shapeCast_b_1b_apply _ _ 0 c).trans (RowSum.multiReduction_apply w _ _ _ _ c))

/-- The product of q with the transpose of p into the zero accumulator, its operands narrowed first: entry (b, c) is
    the inner product of row b of q and row c of p. -/
theorem dot_term (q : FVec Ideal S128x16000 .f32) (p : FVec Ideal S64x16000 .f32) (b : Fin 128) (c : Fin 64) :
    matmul dot_S128x16000_S64x16000_S128x64_1_1_0_0_n_n none (truncf .bf16 q bitsLt_bf16_f32) (truncf .bf16 p bitsLt_bf16_f32)
        (constant S128x64 .f32 0x00000000#32) (ix2 b c)
      = ∑ d : Fin 16000, q (ix2 b d) * p (ix2 c d) :=
  DotForms.abt_matmul_zero_apply dot_isABt none (truncf .bf16 q bitsLt_bf16_f32) (truncf .bf16 p bitsLt_bf16_f32) b c

/-- The body's stored value at (b, c). -/
theorem dist_entry (q : FVec Ideal S128x16000 .f32) (p : FVec Ideal S64x16000 .f32) (b : Fin 128) (c : Fin 64) :
    k1_pay1 (F := Ideal) q p (ix2 b c) = negSqDist q p b c := by
  unfold k1_pay1 negSqDist
  dsimp only
  rw [shapeCast_self q, shapeCast_self p]
  simp only [subf_apply, addf_apply, mulf_apply (s := S128x64), broadcast_apply]
  rw [col_term, row_term, dot_term]
  rfl

end Cert.KernelIdeal.DistValue

end
-- ==== Proof.RefEntry.lean ====
/-
  The reference at an entry.

  The reference reshapes the support array to 64 by 128 by 16000 and the query to 128 by 16000, takes the prototypes
  as the sum over the shots from zero divided by 128, and returns the negation of
  ((0 + |q_b|²) + (0 + |p_c|²)) − 2 · ⟨q_b, p_c⟩ at (b, c).  On exact values 0 + x is x and the negation of x is zero
  minus x, so its entry is the same expression the kernel's second body stores, over the reference's own query matrix
  and prototype matrix; and its prototype entry is the same mean over the shots the kernel's first body stores.
-/
import proofs.«173425_j4698694222630_1_alg».proof.Proof.Gen.ReferenceIdeal.Read
import proofs.«173425_j4698694222630_1_alg».proof.Proof.MeanEntry
import proofs.«173425_j4698694222630_1_alg».proof.Proof.DistEntry
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Gen Cert.ReferenceIdeal.Read
open Cert.KernelIdeal.MeanValue (shotMean)
open Cert.KernelIdeal.DistValue (negSqDist)

/-! ## The positions the reference reads, by coordinates -/

theorem shot_idx (c : Fin 64) (d : Fin 16000) (s : Fin 128) : idx_main_v2 (ix2 c d) s = ix3 c s d :=
  funext fun a => Fin.ext (by match a with | ⟨0, _⟩ => rfl | ⟨1, _⟩ => rfl | ⟨2, _⟩ => rfl)
theorem qrow_idx (b : Fin 128) (c : Fin 64) (k : Fin 16000) :
    idx_main_v6 (idx_main_v7 (idx_main_v12 (ix2 b c))) k = ix2 b k :=
  funext fun a => Fin.ext (by match a with | ⟨0, _⟩ => rfl | ⟨1, _⟩ => rfl)
theorem prow_idx (b : Fin 128) (c : Fin 64) (k : Fin 16000) :
    idx_main_v9 (idx_main_v10 (idx_main_v13 (ix2 b c))) k = ix2 c k :=
  funext fun a => Fin.ext (by match a with | ⟨0, _⟩ => rfl | ⟨1, _⟩ => rfl)
theorem dotl_idx (b : Fin 128) (c : Fin 64) (k : Fin 16000) : lidx_main_v11 (ix2 b c) k = ix2 b k :=
  funext fun a => Fin.ext (by match a with | ⟨0, _⟩ => rfl | ⟨1, _⟩ => rfl)
theorem dotr_idx (b : Fin 128) (c : Fin 64) (k : Fin 16000) : ridx_main_v11 (ix2 b c) k = ix2 c k :=
  funext fun a => Fin.ext (by match a with | ⟨0, _⟩ => rfl | ⟨1, _⟩ => rfl)

/-! ## The prototypes -/

/-- The reference's prototype entry (c, d) is the mean over the shots of its reshaped support array at (c, ·, d). -/
theorem proto_entry (x1 : (⟨S64x128x640x5x5, .f32⟩ : BufTy).Contents (Elt Ideal)) (c : Fin 64) (d : Fin 16000) :
    val_main_v4 (F := Ideal) x1 (ix2 c d) = shotMean (val_main_v0 (F := Ideal) x1) c d := by
  rw [val_main_v4_apply, val_main_v2_apply, val_main_v3_apply]
  simp only [shot_idx, val_main_cst_apply, val_main_cst_0_apply]
  unfold shotMean
  simp only [Ideal.hostDivf_def, Ideal.ofBits_def, Ideal.ofBits_zero_f32, zero_add]

/-! ## The result -/

/-- The reference's result entry (b, c) is the negated squared distance between row b of its query matrix and row c of
    its prototype matrix, in the spelling the kernel's second body has. -/
theorem result_entry (x0 : (⟨S128x640x5x5, .f32⟩ : BufTy).Contents (Elt Ideal))
    (x1 : (⟨S64x128x640x5x5, .f32⟩ : BufTy).Contents (Elt Ideal)) (b : Fin 128) (c : Fin 64) :
    val_main_v18 (F := Ideal) x0 x1 (ix2 b c)
      = negSqDist (val_main_v1 (F := Ideal) x0) (val_main_v4 (F := Ideal) x1) b c := by
  rw [val_main_v18_apply, val_main_v17_apply, val_main_v14_apply, val_main_v16_apply, val_main_v12_apply,
    val_main_v7_apply, val_main_v6_apply, val_main_v13_apply, val_main_v10_apply, val_main_v9_apply,
    val_main_v15_apply, val_main_v11_apply]
  simp only [qrow_idx, prow_idx, dotl_idx, dotr_idx, val_main_v5_apply, val_main_v8_apply,
    val_main_cst_1_apply, val_main_cst_2_apply, val_main_cst_3_apply]
  unfold negSqDist
  simp only [Ideal.hostNegf_def, Ideal.negf_def, Ideal.subf_def, Ideal.addf_def, Ideal.mulf_def, Ideal.ofBits_def,
    Ideal.ofBits_zero_f32, zero_add, zero_sub]

end Cert.ReferenceIdeal.RefValue

end
-- ==== Proof.Bridge.lean ====
/-
  The reference's result is the kernel program's function of the same two arguments.

  Both reshape the arguments the same way.  Entry (c, d) of the reference's prototypes and of the kernel's is the mean
  over the shots of the reshaped support array at (c, ·, d); entry (b, c) of both results is the negated squared
  distance, in one spelling, between row b of the reshaped query and row c of the prototypes.  No law of arithmetic is
  used beyond 0 + x = x and 0 − x = −x on the extended reals, so nothing is asked of the inputs.
-/
import proofs.«173425_j4698694222630_1_alg».proof.Proof.RefEntry
import proofs.«173425_j4698694222630_1_alg».proof.Proof.KernelValue

noncomputable section

namespace Cert.Bridge

open Idealize.ShloMosaic Idealize.ShloMosaic.ValueIdx
open Cert.ReferenceIdeal.Read
open Cert.KernelIdeal.ProtoValue (protoOf protoOf_apply)
open Cert.KernelIdeal.DistArrayValue (distOf)
open Cert.KernelIdeal.DistValue (negSqDist dist_entry)
open Cert.KernelIdeal.KernelValue (resultOf)

/-- The reference's prototype matrix is the prototypes of its reshaped support array. -/
theorem proto_eq (x1 : (⟨Cert.ReferenceIdeal.S64x128x640x5x5, .f32⟩ : BufTy).Contents (Elt Ideal)) :
    val_main_v4 (F := Ideal) x1 = protoOf (val_main_v0 (F := Ideal) x1) := by
  funext i
  obtain ⟨c, d, rfl⟩ : ∃ (c : Fin 64) (d : Fin 16000), i = ix2 c d := ⟨i 0, i 1, eq_ix2 i⟩
  exact (Cert.ReferenceIdeal.RefValue.proto_entry x1 c d).trans (protoOf_apply _ c d).symm

/-- The reference's result stage is the kernel program's function of the two arguments. -/
theorem result_eq (x0 : (⟨Cert.ReferenceIdeal.S128x640x5x5, .f32⟩ : BufTy).Contents (Elt Ideal))
    (x1 : (⟨Cert.ReferenceIdeal.S64x128x640x5x5, .f32⟩ : BufTy).Contents (Elt Ideal)) :
    val_main_v18 (F := Ideal) x0 x1 = resultOf x0 x1 := by
  funext j
  obtain ⟨b, c, rfl⟩ : ∃ (b : Fin 128) (c : Fin 64), j = ix2 b c := ⟨j 0, j 1, eq_ix2 j⟩
  refine (Cert.ReferenceIdeal.RefValue.result_entry x0 x1 b c).trans ?_
  rw [proto_eq x1]
  exact (dist_entry _ _ b c).symm

end Cert.Bridge

end
-- ==== Proof.lean ====
/- The proof of `Cert.Claim` (proofs.«173425_j4698694222630_1_alg».proof.Defs).

   The kernel program computes, in two regions, the prototypes (the mean over the 128 shots of each class's support
   vectors) and then, for query b and class c, the negated squared distance −(|q_b|² + |p_c|² − 2⟨q_b, p_c⟩); the
   reference computes the same with whole-array operations.  On exact values the two are one function of the two
   arguments, entry by entry: the prototypes' entry (c, d) is the sum over the shots divided by the same word 128.0 on
   both sides (Proof/MeanEntry.lean, Proof/ProtoArray.lean for the 40 blocks that tile the prototype array,
   Proof/RefEntry.lean for the reference), and the result's entry (b, c) is one expression of the query matrix and
   the prototype matrix (Proof/DistEntry.lean, Proof/DistArray.lean, Proof/RefEntry.lean): the kernel's product of q
   with the transpose of p into a zero accumulator is the reference's contraction, its row sums are the reference's
   sums from zero, and zero minus x is the negation of x.  No law that needs finite numbers is used, so the
   precondition is never opened.  Proof/KernelIdealRun.lean is the program's run with the result array named,
   Proof/KernelValue.lean reads that array back to the arguments, Proof/Bridge.lean joins the two sides.
   The three frames are the generated ones (the reference's is its generated run with the result dropped); the
   idealization rewrote nothing, so `preserves` is `True`. -/
import proofs.«173425_j4698694222630_1_alg».proof.Defs
import proofs.«173425_j4698694222630_1_alg».proof.Proof.Gen.Kernel
import proofs.«173425_j4698694222630_1_alg».proof.Proof.Gen.Kernel.Skeleton
import proofs.«173425_j4698694222630_1_alg».proof.Proof.Gen.Kernel.Launch
import proofs.«173425_j4698694222630_1_alg».proof.Proof.Gen.Kernel.Points
import proofs.«173425_j4698694222630_1_alg».proof.Proof.Gen.Kernel.Frame
import proofs.«173425_j4698694222630_1_alg».proof.Proof.Gen.KernelIdeal
import proofs.«173425_j4698694222630_1_alg».proof.Proof.Gen.KernelIdeal.Skeleton
import proofs.«173425_j4698694222630_1_alg».proof.Proof.Gen.KernelIdeal.Launch
import proofs.«173425_j4698694222630_1_alg».proof.Proof.Gen.KernelIdeal.Points
import proofs.«173425_j4698694222630_1_alg».proof.Proof.Gen.KernelIdeal.Frame
import proofs.«173425_j4698694222630_1_alg».proof.Proof.Gen.ReferenceIdeal
import proofs.«173425_j4698694222630_1_alg».proof.Proof.Gen.Pre_finite_inputs
import proofs.«173425_j4698694222630_1_alg».proof.Proof.Gen.ReferenceIdeal.Run
import proofs.«173425_j4698694222630_1_alg».proof.Proof.Gen.ReferenceIdeal.Read
import proofs.«173425_j4698694222630_1_alg».proof.Proof.KernelValue
import proofs.«173425_j4698694222630_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, run from memories that agree on the two arguments, end with the result array at the kernel
    program's function of those arguments: the kernel by its run read back, the reference by its run's term, which is
    that function entry by entry. -/
theorem algebraic : Cert.algebraic_KernelIdeal_ReferenceIdeal := by
  intro m ρ m' ρ' _ hagree
  refine ⟨fun c => Cert.KernelIdeal.KernelValue.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v18_eq _ _).trans (Cert.Bridge.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
